-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_v29) = v1 c
          ∧ r.2.mem ((c.tc : Thread Cert.ReferenceIdeal.nD Cert.ReferenceIdeal.τ).loc Cert.ReferenceIdeal.main_v30) = v2 c
          ∧ r.2.mem ((c.tc : Thread Cert.ReferenceIdeal.nD Cert.ReferenceIdeal.τ).loc Cert.ReferenceIdeal.main_v31) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S_ : Shape := ⟨0, ![]⟩

class Facts : Prop where
  bcast_S_S32x8x2048 : S_.BroadcastsInDim S32x8x2048 (![] : Fin 0 → Fin S32x8x2048.rank)
  reducesTo_S32x8x2048_S_d0_1_2 : S32x8x2048.ReducesTo [0, 1, 2] S_
  h_S_ : 0 < S_.numel
  bcast_S_S21128x2048 : S_.BroadcastsInDim S21128x2048 (![] : Fin 0 → Fin S21128x2048.rank)
  reducesTo_S21128x2048_S_d0_1 : S21128x2048.ReducesTo [0, 1] S_
  bcast_S_S2048x512 : S_.BroadcastsInDim S2048x512 (![] : Fin 0 → Fin S2048x512.rank)
  reducesTo_S2048x512_S_d0_1 : S2048x512.ReducesTo [0, 1] S_
  bcast_S_S512 : S_.BroadcastsInDim S512 (![] : Fin 0 → Fin S512.rank)
  reducesTo_S512_S_d0 : S512.ReducesTo [0] S_
  bcast_S_S512x768 : S_.BroadcastsInDim S512x768 (![] : Fin 0 → Fin S512x768.rank)
  reducesTo_S512x768_S_d0_1 : S512x768.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg10 : FVec F S512x768 .f32) (main_arg11 : FVec F S768 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg10
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S768 .f32 := Host.absf main_arg11
  let main_cst_8 : FVec F S_ .f32 := constant S_ .f32 0x7F800000#32
  let main_v25 : FVec F S768 .f32 := broadcastInDim S768 ![] bcast_S_S768 main_cst_8
  let main_v26 : IVec S768 1 := cmpf .olt main_v24 main_v25
  let main_c_9 : IVec S_ 1 := constantI S_ 1 1#1
  let main_v27 : IVec S_ 1 := (fun x v => Host.reduce IntOp.andi x v reducesTo_S768_S_d0 h_S_) main_v26 main_c_9
  let main_v28 : IVec S_ 1 := andi main_v23 main_v27
  main_v28

def fn {F : FTy → Type} [FloatOps F] (main_arg0 : FVec F S32x8x2048 .f32) (main_arg1 : IVec S32x352 32) (main_arg2 : IVec S32x32 32) (main_arg3 : IVec S32x32 32) (main_arg4 : IVec S32x32 32) (main_arg5 : IVec S32x352 32) (main_arg6 : IVec S32x352 32) (main_arg7 : FVec F S21128x2048 .f32) (main_arg8 : FVec F S2048x512 .f32) (main_arg9 : FVec F S512 .f32) (main_arg10 : FVec F S512x768 .f32) (main_arg11 : FVec F S768 .f32) : IVec S_ 1 :=
  let main_v0 : FVec F S32x8x2048 .f32 := Host.absf main_arg0
  let main_cst : FVec F S_ .f32 := constant S_ .f32 0x7F800000#32
  let main_v1 : FVec F S32x8x2048 .f32 := broadcastInDim S32x8x2048 ![] bcast_S_S32x8x2048 main_cst
  let main_v2 : IVec S32x8x2048 1 := cmpf .olt main_v0 main_v1
  let main_c : IVec S_ 1 := constantI S_ 1 1#1
  let main_v3 : IVec S_ 1 := (fun x v => Host.reduce IntOp.andi x v reducesTo_S32x8x2048_S_d0_1_2 h_S_) main_v2 main_c
  let main_v4 : FVec F S21128x2048 .f32 := Host.absf main_arg7
  let main_cst_0 : FVec F S_ .f32 := constant S_ .f32 0x7F800000#32
  let main_v5 : FVec F S21128x2048 .f32 := broadcastInDim S21128x2048 ![] bcast_S_S21128x2048 main_cst_0
  let main_v6 : IVec S21128x2048 1 := cmpf .olt main_v4 main_v5
  let main_c_1 : IVec S_ 1 := constantI S_ 1 1#1
  let main_v7 : IVec S_ 1 := (fun x v => Host.reduce IntOp.andi x v reducesTo_S21128x2048_S_d0_1 h_S_) main_v6 main_c_1
  let main_v8 : IVec S_ 1 := andi main_v3 main_v7
  let main_v9 : FVec F S2048x512 .f32 := Host.absf main_arg8
  let main_cst_2 : FVec F S_ .f32 := constant S_ .f32 0x7F800000#32
  let main_v10 : FVec F S2048x512 .f32 := broadcastInDim S2048x512 ![] bcast_S_S2048x512 main_cst_2
  let main_v11 : IVec S2048x512 1 := cmpf .olt main_v9 main_v10
  let main_c_3 : IVec S_ 1 := constantI S_ 1 1#1
  let main_v12 : IVec S_ 1 := (fun x v => Host.reduce IntOp.andi x v reducesTo_S2048x512_S_d0_1 h_S_) main_v11 main_c_3
  let main_v13 : IVec S_ 1 := andi main_v8 main_v12
  let main_v14 : FVec F S512 .f32 := Host.absf main_arg9
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg10 main_arg11 main_v13 main_v16
-- ==== Kernel.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S_ : Shape := ⟨0, ![]⟩
abbrev S32x32x1 : Shape := ⟨3, ![32, 32, 1]⟩
abbrev S32x32x2048 : Shape := ⟨3, ![32, 32, 2048]⟩
abbrev S32x352x1 : Shape := ⟨3, ![32, 352, 1]⟩
abbrev S32x352x2048 : Shape := ⟨3, ![32, 352, 2048]⟩
abbrev S32x8x44x2048 : Shape := ⟨4, ![32, 8, 44, 2048]⟩
abbrev S32x8x1x2048 : Shape := ⟨4, ![32, 8, 1, 2048]⟩
abbrev S32x384x2048 : Shape := ⟨3, ![32, 384, 2048]⟩
abbrev S12288x2048 : Shape := ⟨2, ![12288, 2048]⟩
abbrev S1x512 : Shape := ⟨2, ![1, 512]⟩
abbrev S1x768 : Shape := ⟨2, ![1, 768]⟩
abbrev S12288x768 : Shape := ⟨2, ![12288, 768]⟩
abbrev S32x384x768 : Shape := ⟨3, ![32, 384, 768]⟩
abbrev S32x384 : Shape := ⟨2, ![32, 384]⟩
abbrev S512x2048 : Shape := ⟨2, ![512, 2048]⟩
abbrev S512x512 : Shape := ⟨2, ![512, 512]⟩

abbrev nBuf : Space → Nat
  | .hbm => 46
  | .vmem => 8
  | .smem => 0
  | _ => 0

abbrev bufTy : (tb : Table) → Fin (tcTables nBuf tb) → BufTy
  | .hbm, ⟨0, _⟩ => ⟨S32x8x2048, .f32⟩
  | .hbm, ⟨1, _⟩ => ⟨S32x352, .i32⟩
  | .hbm, ⟨2, _⟩ => ⟨S32x32, .i32⟩
  | .hbm, ⟨3, _⟩ => ⟨S32x32, .i32⟩
  | .hbm, ⟨4, _⟩ => ⟨S32x32, .i32⟩
  | .hbm, ⟨5, _⟩ => ⟨S32x352, .i32⟩
  | .hbm, ⟨6, _⟩ => ⟨S32x352, .i32⟩
  | .hbm, ⟨7, _⟩ => ⟨S21128x2048, .f32⟩
  | .hbm, ⟨8, _⟩ => ⟨S2048x512, .f32⟩
  | .hbm, ⟨9, _⟩ => ⟨S512, .f32⟩
  | .hbm, ⟨10, _⟩ => ⟨S512x768, .f32⟩
  | .hbm, ⟨11, _⟩ => ⟨S768, .f32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32x1, .i32⟩
  | .hbm, ⟨20, _⟩ => ⟨S32x32x2048, .f32⟩
  | .hbm, ⟨21, _⟩ => ⟨S_, .i32⟩
  | .hbm, ⟨22, _⟩ => ⟨S32x352, .i32⟩
  | .hbm, ⟨23, _⟩ => ⟨S32x352, .i1⟩
  | .hbm, ⟨24, _⟩ => ⟨S_, .i32⟩
  | .hbm, ⟨25, _⟩ => ⟨S32x352, .i32⟩
  | .hbm, ⟨26, _⟩ => ⟨S32x352, .i32⟩
  | .hbm, ⟨27, _⟩ => ⟨S32x352, .i32⟩
  | .hbm, ⟨28, _⟩ => ⟨S32x352x1, .i32⟩
  | .hbm, ⟨29, _⟩ => ⟨S32x352x2048, .f32⟩
  | .hbm, ⟨30, _⟩ => ⟨S32x8x44x2048, .f32⟩
  | .hbm, ⟨31, _⟩ => ⟨S32x8x1x2048, .f32⟩
  | .hbm, ⟨32, _⟩ => ⟨S32x8x44x2048, .f32⟩
  | .hbm, ⟨33, _⟩ => ⟨S32x8x44x2048, .f32⟩
  | .hbm, ⟨34, _⟩ => ⟨S32x352x2048, .f32⟩
  | .hbm, ⟨35, _⟩ => ⟨S32x384x2048, .f32⟩
  | .hbm, ⟨36, _⟩ => ⟨S12288x2048, .f32⟩
  | .hbm, ⟨37, _⟩ => ⟨S2048x512, .bf16⟩
  | .hbm, ⟨38, _⟩ => ⟨S512x768, .bf16⟩
  | .hbm, ⟨39, _⟩ => ⟨S1x512, .f32⟩
  | .hbm, ⟨40, _⟩ => ⟨S1x768, .f32⟩
  | .hbm, ⟨41, _⟩ => ⟨S12288x768, .f32⟩
  | .hbm, ⟨42, _⟩ => ⟨S32x384x768, .f32⟩
  | .hbm, ⟨43, _⟩ => ⟨S32x384, .i32⟩
  | .hbm, ⟨44, _⟩ => ⟨S32x384, .i32⟩
  | .hbm, ⟨45, _⟩ => ⟨S32x384, .i32⟩
  | .local _ .vmem, ⟨0, _⟩ => ⟨S512x2048, .f32⟩
  | .local _ .vmem, ⟨1, _⟩ => ⟨S512x2048, .f32⟩
  | .local _ .vmem, ⟨2, _⟩ => ⟨S2048x512, .bf16⟩
  | .local _ .vmem, ⟨3, _⟩ => ⟨S1x512, .f32⟩
  | .local _ .vmem, ⟨4, _⟩ => ⟨S512x768, .bf16⟩
  | .local _ .vmem, ⟨5, _⟩ => ⟨S1x768, .f32⟩
  | .local _ .vmem, ⟨6, _⟩ => ⟨S512x768, .f32⟩
  | .local _ .vmem, ⟨7, _⟩ => ⟨S512x768, .f32⟩
  | _, _ => ⟨S32x8x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_call0_c : Ref sig .tc := ⟨.hbm, 12, rfl⟩
abbrev main_call0_v0 : Ref sig .tc := ⟨.hbm, 13, rfl⟩
abbrev main_call0_v1 : Ref sig .tc := ⟨.hbm, 14, rfl⟩
abbrev main_call0_c_0 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_v5 : Ref sig .tc := ⟨.hbm, 19, rfl⟩
abbrev main_call0_v6 : Ref sig .tc := ⟨.hbm, 20, rfl⟩
abbrev main_call0_c_1 : Ref sig .tc := ⟨.hbm, 21, rfl⟩
abbrev main_call0_v7 : Ref sig .tc := ⟨.hbm, 22, rfl⟩
abbrev main_call0_v8 : Ref sig .tc := ⟨.hbm, 23, rfl⟩
abbrev main_call0_c_2 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_v15 : Ref sig .tc := ⟨.hbm, 31, rfl⟩
abbrev main_call0_v16 : Ref sig .tc := ⟨.hbm, 32, rfl⟩
abbrev main_call0_v17 : Ref sig .tc := ⟨.hbm, 33, rfl⟩
abbrev main_call0_v18 : Ref sig .tc := ⟨.hbm, 34, rfl⟩
abbrev main_call0_v19 : Ref sig .tc := ⟨.hbm, 35, rfl⟩
abbrev main_call0_v20 : Ref sig .tc := ⟨.hbm, 36, rfl⟩
abbrev main_call0_v21 : Ref sig .tc := ⟨.hbm, 37, rfl⟩
abbrev main_call0_v22 : Ref sig .tc := ⟨.hbm, 38, rfl⟩
abbrev main_call0_v23 : Ref sig .tc := ⟨.hbm, 39, rfl⟩
abbrev main_call0_v24 : Ref sig .tc := ⟨.hbm, 40, rfl⟩
abbrev main_call0_v25 : Ref sig .tc := ⟨.hbm, 41, rfl⟩
abbrev main_v0_0 : Ref sig .tc := ⟨.hbm, 42, rfl⟩
abbrev main_v0_1 : Ref sig .tc := ⟨.hbm, 43, rfl⟩
abbrev main_v0_2 : Ref sig .tc := ⟨.hbm, 44, rfl⟩
abbrev main_v0_3 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![24], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S512x768 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x768 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x768 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S_S32x352 : S_.BroadcastsInDim S32x352 (![] : Fin 0 → Fin S32x352.rank)
  bcast_S32x352_S32x352x1_0_1 : S32x352.BroadcastsInDim S32x352x1 (![0, 1] : Fin 2 → Fin S32x352x1.rank)
  shapeCasts_S32x352x2048_S32x8x44x2048 : S32x352x2048.ShapeCasts S32x8x44x2048
  bcast_S32x8x2048_S32x8x1x2048_0_1_3 : S32x8x2048.BroadcastsInDim S32x8x1x2048 (![0, 1, 3] : Fin 3 → Fin S32x8x1x2048.rank)
  bcast_S32x8x1x2048_S32x8x44x2048_0_1_2_3 : S32x8x1x2048.BroadcastsInDim S32x8x44x2048 (![0, 1, 2, 3] : Fin 4 → Fin S32x8x44x2048.rank)
  shapeCasts_S32x8x44x2048_S32x352x2048 : S32x8x44x2048.ShapeCasts S32x352x2048
  concatenates_S32x32x2048_S32x352x2048_S32x384x2048_d1 : Shape.Concatenates [S32x32x2048, S32x352x2048] S32x384x2048 1
  shapeCasts_S32x384x2048_S12288x2048 : S32x384x2048.ShapeCasts S12288x2048
  bitsLt_bf16_f32 : FTy.bits .bf16 < FTy.bits .f32
  shapeCasts_S512_S1x512 : S512.ShapeCasts S1x512
  shapeCasts_S768_S1x768 : S768.ShapeCasts S1x768
  shapeCasts_S12288x768_S32x384x768 : S12288x768.ShapeCasts S32x384x768
  concatenates_S32x32_S32x352_S32x384_d1 : Shape.Concatenates [S32x32, S32x352] S32x384 1
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S2048x512_S2048x512_0_0 : ∀ a, (![0, 0] : Fin 2 → Nat) a + S2048x512.size a ≤ S2048x512.size a
  h_S2048x512 : 0 < S2048x512.numel
  shapeCasts_S2048x512_S2048x512 : S2048x512.ShapeCasts S2048x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  inb_S512x768_S512x768_0_0 : ∀ a, (![0, 0] : Fin 2 → Nat) a + S512x768.size a ≤ S512x768.size a
  h_S512x768 : 0 < S512x768.numel
  shapeCasts_S512x768_S512x768 : S512x768.ShapeCasts S512x768
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S512x768 : S1x768.Broadcasts S512x768
  gather_S21128x2048_S32x32x1_S32x32x2048_2_0_n_n_0_2_12048_wf : GatherDims.WF S21128x2048 S32x32x1 S32x32x2048 [2] [0] [] [0] [] 2 ![1, 2048]
  gather_S21128x2048_S32x352x1_S32x352x2048_2_0_n_n_0_2_12048_wf : GatherDims.WF S21128x2048 S32x352x1 S32x352x2048 [2] [0] [] [0] [] 2 ![1, 2048]
  dot_S512x2048_S2048x512_S512x512_1_0_0_1_n_n_wf : DotDims.WF S512x2048 S2048x512 S512x512 [1] [0] [0] [1] [] []
  dot_S512x512_S512x768_S512x768_1_0_0_1_n_n_wf : DotDims.WF S512x512 S512x768 S512x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S12288x2048.size a
  hwx0_0 : ∀ i : grid0.Coords, EltTy.bits .f32 = 32 ∨ (Rect.block (s := S12288x2048) S512x2048.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S2048x512.size a ≤ S2048x512.size a
  hwx0_1 : ∀ i : grid0.Coords, EltTy.bits .bf16 = 32 ∨ (Rect.block (s := S2048x512) S2048x512.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .f32 = 32 ∨ (Rect.block (s := S1x512) S1x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x768.size a ≤ S512x768.size a
  hwx0_3 : ∀ i : grid0.Coords, EltTy.bits .bf16 = 32 ∨ (Rect.block (s := S512x768) S512x768.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x768.size a ≤ S1x768.size a
  hwx0_4 : ∀ i : grid0.Coords, EltTy.bits .f32 = 32 ∨ (Rect.block (s := S1x768) S1x768.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x768.size a ≤ S12288x768.size a
  hwx0_5 : ∀ i : grid0.Coords, EltTy.bits .f32 = 32 ∨ (Rect.block (s := S12288x768) S512x768.size (cc0_transform_5 i) (hinb0_5 i)).WholeWords (EltTy.packing .f32)

variable [Facts₀]

def gather_S21128x2048_S32x32x1_S32x32x2048_2_0_n_n_0_2_12048 : GatherDims S21128x2048 S32x32x1 S32x32x2048 where
  offsetDims := [2]
  collapsedSliceDims := [0]
  operandBatchingDims := []
  startIndicesBatchingDims := []
  startIndexMap := [0]
  indexVectorDim := 2
  sliceSizes := ![1, 2048]
  wf := gather_S21128x2048_S32x32x1_S32x32x2048_2_0_n_n_0_2_12048_wf
def gather_S21128x2048_S32x352x1_S32x352x2048_2_0_n_n_0_2_12048 : GatherDims S21128x2048 S32x352x1 S32x352x2048 where
  offsetDims := [2]
  collapsedSliceDims := [0]
  operandBatchingDims := []
  startIndicesBatchingDims := []
  startIndexMap := [0]
  indexVectorDim := 2
  sliceSizes := ![1, 2048]
  wf := gather_S21128x2048_S32x352x1_S32x352x2048_2_0_n_n_0_2_12048_wf
def dot_S512x2048_S2048x512_S512x512_1_0_0_1_n_n : DotDims S512x2048 S2048x512 S512x512 where
  lhsContracting := [1]
  rhsContracting := [0]
  lhsNonContracting := [0]
  rhsNonContracting := [1]
  lhsBatch := []
  rhsBatch := []
  wf := dot_S512x2048_S2048x512_S512x512_1_0_0_1_n_n_wf
def dot_S512x512_S512x768_S512x768_1_0_0_1_n_n : DotDims S512x512 S512x768 S512x768 where
  lhsContracting := [1]
  rhsContracting := [0]
  lhsNonContracting := [0]
  rhsNonContracting := [1]
  lhsBatch := []
  rhsBatch := []
  wf := dot_S512x512_S512x768_S512x768_1_0_0_1_n_n_wf

abbrev win0_0 : Pipeline.Window sig grid0 :=
  Pipeline.Window.ofSpec (Memref.whole main_call0_v20) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v21) S2048x512.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_call0_v23) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v22) S512x768.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v24) S1x768.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v25) S512x768.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x8x2048 : Shape := ⟨3, ![32, 8, 2048]⟩
abbrev S32x352 : Shape := ⟨2, ![32, 352]⟩
abbrev S32x32 : Shape := ⟨2, ![32, 32]⟩
abbrev S21128x2048 : Shape := ⟨2, ![21128, 2048]⟩
abbrev S2048x512 : Shape := ⟨2, ![2048, 512]⟩
abbrev S512 : Shape := ⟨1, ![512]⟩
abbrev S512x768 : Shape := ⟨2, ![512, 768]⟩
abbrev S768 : Shape := ⟨1, ![768]⟩
abbrev S_ : Shape := ⟨0, ![]⟩
abbrev S32x32x1 : Shape := ⟨3, ![32, 32, 1]⟩
abbrev S32x32x2048 : Shape := ⟨3, ![32, 32, 2048]⟩
abbrev S32x352x1 : Shape := ⟨3, ![32, 352, 1]⟩
abbrev S32x352x2048 : Shape := ⟨3, ![32, 352, 2048]⟩
abbrev S32x8x44x2048 : Shape := ⟨4, ![32, 8, 44, 2048]⟩
abbrev S32x8x1x2048 : Shape := ⟨4, ![32, 8, 1, 2048]⟩
abbrev S32x384x2048 : Shape := ⟨3, ![32, 384, 2048]⟩
abbrev S32x384x512 : Shape := ⟨3, ![32, 384, 512]⟩
abbrev S1x1x512 : Shape := ⟨3, ![1, 1, 512]⟩
abbrev S32x384x768 : Shape := ⟨3, ![32, 384, 768]⟩
abbrev S1x1x768 : Shape := ⟨3, ![1, 1, 768]⟩
abbrev S32x384 : Shape := ⟨2, ![32, 384]⟩

abbrev nBuf : Space → Nat
  | .hbm => 48
  | .vmem => 0
  | .smem => 0
  | _ => 0

abbrev bufTy : (tb : Table) → Fin (tcTables nBuf tb) → BufTy
  | .hbm, ⟨0, _⟩ => ⟨S32x8x2048, .f32⟩
  | .hbm, ⟨1, _⟩ => ⟨S32x352, .i32⟩
  | .hbm, ⟨2, _⟩ => ⟨S32x32, .i32⟩
  | .hbm, ⟨3, _⟩ => ⟨S32x32, .i32⟩
  | .hbm, ⟨4, _⟩ => ⟨S32x32, .i32⟩
  | .hbm, ⟨5, _⟩ => ⟨S32x352, .i32⟩
  | .hbm, ⟨6, _⟩ => ⟨S32x352, .i32⟩
  | .hbm, ⟨7, _⟩ => ⟨S21128x2048, .f32⟩
  | .hbm, ⟨8, _⟩ => ⟨S2048x512, .f32⟩
  | .hbm, ⟨9, _⟩ => ⟨S512, .f32⟩
  | .hbm, ⟨10, _⟩ => ⟨S512x768, .f32⟩
  | .hbm, ⟨11, _⟩ => ⟨S768, .f32⟩
  | .hbm, ⟨12, _⟩ => ⟨S_, .i32⟩
  | .hbm, ⟨13, _⟩ => ⟨S32x32, .i32⟩
  | .hbm, ⟨14, _⟩ => ⟨S32x32, .i1⟩
  | .hbm, ⟨15, _⟩ => ⟨S_, .i32⟩
  | .hbm, ⟨16, _⟩ => ⟨S32x32, .i32⟩
  | .hbm, ⟨17, _⟩ => ⟨S32x32, .i32⟩
  | .hbm, ⟨18, _⟩ => ⟨S32x32, .i32⟩
  | .hbm, ⟨19, _⟩ => ⟨S32x32x1, .i32⟩
  | .hbm, ⟨20, _⟩ => ⟨S32x32x2048, .f32⟩
  | .hbm, ⟨21, _⟩ => ⟨S_, .i32⟩
  | .hbm, ⟨22, _⟩ => ⟨S32x352, .i32⟩
  | .hbm, ⟨23, _⟩ => ⟨S32x352, .i1⟩
  | .hbm, ⟨24, _⟩ => ⟨S_, .i32⟩
  | .hbm, ⟨25, _⟩ => ⟨S32x352, .i32⟩
  | .hbm, ⟨26, _⟩ => ⟨S32x352, .i32⟩
  | .hbm, ⟨27, _⟩ => ⟨S32x352, .i32⟩
  | .hbm, ⟨28, _⟩ => ⟨S32x352x1, .i32⟩
  | .hbm, ⟨29, _⟩ => ⟨S32x352x2048, .f32⟩
  | .hbm, ⟨30, _⟩ => ⟨S32x8x44x2048, .f32⟩
  | .hbm, ⟨31, _⟩ => ⟨S32x8x1x2048, .f32⟩
  | .hbm, ⟨32, _⟩ => ⟨S32x8x44x2048, .f32⟩
  | .hbm, ⟨33, _⟩ => ⟨S32x8x44x2048, .f32⟩
  | .hbm, ⟨34, _⟩ => ⟨S32x352x2048, .f32⟩
  | .hbm, ⟨35, _⟩ => ⟨S32x384x2048, .f32⟩
  | .hbm, ⟨36, _⟩ => ⟨S32x384x512, .f32⟩
  | .hbm, ⟨37, _⟩ => ⟨S1x1x512, .f32⟩
  | .hbm, ⟨38, _⟩ => ⟨S32x384x512, .f32⟩
  | .hbm, ⟨39, _⟩ => ⟨S32x384x512, .f32⟩
  | .hbm, ⟨40, _⟩ => ⟨S32x384x512, .f32⟩
  | .hbm, ⟨41, _⟩ => ⟨S32x384x768, .f32⟩
  | .hbm, ⟨42, _⟩ => ⟨S1x1x768, .f32⟩
  | .hbm, ⟨43, _⟩ => ⟨S32x384x768, .f32⟩
  | .hbm, ⟨44, _⟩ => ⟨S32x384x768, .f32⟩
  | .hbm, ⟨45, _⟩ => ⟨S32x384, .i32⟩
  | .hbm, ⟨46, _⟩ => ⟨S32x384, .i32⟩
  | .hbm, ⟨47, _⟩ => ⟨S32x384, .i32⟩
  | _, _ => ⟨S32x8x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_c_0 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_c_1 : Ref sig .tc := ⟨.hbm, 21, rfl⟩
abbrev main_v7 : Ref sig .tc := ⟨.hbm, 22, rfl⟩
abbrev main_v8 : Ref sig .tc := ⟨.hbm, 23, rfl⟩
abbrev main_c_2 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩

abbrev nD : Nat := 1
abbrev τ : Topo := Topo.v7x

variable {F : FTy → Type} [FloatOps F]

class Facts₀ : Prop where
  bcast_S_S32x32 : S_.BroadcastsInDim S32x32 (![] : Fin 0 → Fin S32x32.rank)
  bcast_S32x32_S32x32x1_0_1 : S32x32.BroadcastsInDim S32x32x1 (![0, 1] : Fin 2 → Fin S32x32x1.rank)
  bcast_S_S32x352 : S_.BroadcastsInDim S32x352 (![] : Fin 0 → Fin S32x352.rank)
  bcast_S32x352_S32x352x1_0_1 : S32x352.BroadcastsInDim S32x352x1 (![0, 1] : Fin 2 → Fin S32x352x1.rank)
  shapeCasts_S32x352x2048_S32x8x44x2048 : S32x352x2048.ShapeCasts S32x8x44x2048
  bcast_S32x8x2048_S32x8x1x2048_0_1_3 : S32x8x2048.BroadcastsInDim S32x8x1x2048 (![0, 1, 3] : Fin 3 → Fin S32x8x1x2048.rank)
  bcast_S32x8x1x2048_S32x8x44x2048_0_1_2_3 : S32x8x1x2048.BroadcastsInDim S32x8x44x2048 (![0, 1, 2, 3] : Fin 4 → Fin S32x8x44x2048.rank)
  shapeCasts_S32x8x44x2048_S32x352x2048 : S32x8x44x2048.ShapeCasts S32x352x2048
  concatenates_S32x32x2048_S32x352x2048_S32x384x2048_d1 : Shape.Concatenates [S32x32x2048, S32x352x2048] S32x384x2048 1
  bcast_S512_S1x1x512_2 : S512.BroadcastsInDim S1x1x512 (![2] : Fin 1 → Fin S1x1x512.rank)
  bcast_S1x1x512_S32x384x512_0_1_2 : S1x1x512.BroadcastsInDim S32x384x512 (![0, 1, 2] : Fin 3 → Fin S32x384x512.rank)
  bcast_S768_S1x1x768_2 : S768.BroadcastsInDim S1x1x768 (![2] : Fin 1 → Fin S1x1x768.rank)
  bcast_S1x1x768_S32x384x768_0_1_2 : S1x1x768.BroadcastsInDim S32x384x768 (![0, 1, 2] : Fin 3 → Fin S32x384x768.rank)
  concatenates_S32x32_S32x352_S32x384_d1 : Shape.Concatenates [S32x32, S32x352] S32x384 1
  gather_S21128x2048_S32x32x1_S32x32x2048_2_0_n_n_0_2_12048_wf : GatherDims.WF S21128x2048 S32x32x1 S32x32x2048 [2] [0] [] [0] [] 2 ![1, 2048]
  gather_S21128x2048_S32x352x1_S32x352x2048_2_0_n_n_0_2_12048_wf : GatherDims.WF S21128x2048 S32x352x1 S32x352x2048 [2] [0] [] [0] [] 2 ![1, 2048]
  dot_S32x384x2048_S2048x512_S32x384x512_2_0_01_1_n_n_wf : DotDims.WF S32x384x2048 S2048x512 S32x384x512 [2] [0] [0, 1] [1] [] []
  dot_S32x384x512_S512x768_S32x384x768_2_0_01_1_n_n_wf : DotDims.WF S32x384x512 S512x768 S32x384x768 [2] [0] [0, 1] [1] [] []

variable [Facts₀]

def gather_S21128x2048_S32x32x1_S32x32x2048_2_0_n_n_0_2_12048 : GatherDims S21128x2048 S32x32x1 S32x32x2048 where
  offsetDims := [2]
  collapsedSliceDims := [0]
  operandBatchingDims := []
  startIndicesBatchingDims := []
  startIndexMap := [0]
  indexVectorDim := 2
  sliceSizes := ![1, 2048]
  wf := gather_S21128x2048_S32x32x1_S32x32x2048_2_0_n_n_0_2_12048_wf
def gather_S21128x2048_S32x352x1_S32x352x2048_2_0_n_n_0_2_12048 : GatherDims S21128x2048 S32x352x1 S32x352x2048 where
  offsetDims := [2]
  collapsedSliceDims := [0]
  operandBatchingDims := []
  startIndicesBatchingDims := []
  startIndexMap := [0]
  indexVectorDim := 2
  sliceSizes := ![1, 2048]
  wf := gather_S21128x2048_S32x352x1_S32x352x2048_2_0_n_n_0_2_12048_wf
def dot_S32x384x2048_S2048x512_S32x384x512_2_0_01_1_n_n : DotDims S32x384x2048 S2048x512 S32x384x512 where
  lhsContracting := [2]
  rhsContracting := [0]
  lhsNonContracting := [0, 1]
  rhsNonContracting := [1]
  lhsBatch := []
  rhsBatch := []
  wf := dot_S32x384x2048_S2048x512_S32x384x512_2_0_01_1_n_n_wf
def dot_S32x384x512_S512x768_S32x384x768_2_0_01_1_n_n : DotDims S32x384x512 S512x768 S32x384x768 where
  lhsContracting := [2]
  rhsContracting := [0]
  lhsNonContracting := [0, 1]
  rhsNonContracting := [1]
  lhsBatch := []
  rhsBatch := []
  wf := dot_S32x384x512_S512x768_S32x384x768_2_0_01_1_n_n_wf

class Facts : Prop extends Facts₀ where

variable [Facts]
-- ==== Proof.Mlp.lean ====
/-
  The projector as plain mathematics on the extended reals.

  One token row x ∈ EReal^2048 goes through two affine layers with a tanh between them:
      h k   = tanh (Σ_d x d · W1 d k + b1 k)            (k < 512)
      out e = Σ_k h k · W2 k e + b2 e                    (e < 768)
  No sum is regrouped and no factor is moved across a sum, so the formula is the same term
  whether a row is taken from a [12288, 2048] matrix or from a [32, 384, 2048] tensor; only the
  way a row is addressed differs: row 384·b + s of the matrix is row (b, s) of the tensor.
-/
import Idealize.ShloMosaic.Lib.ValueIdx
import Idealize.ShloMosaic.Lib.ValueLayout
import Idealize.ShloMosaic.Lib.Pipeline.Value

noncomputable section

open scoped BigOperators

namespace Cert.Mlp

open Idealize.ShloMosaic Idealize.ShloMosaic.ValueIdx

/-- The hidden unit `k` of a row: tanh of the first affine layer. -/
def hid (x : Fin 2048 → EReal) (W1 : Fin 2048 → Fin 512 → EReal) (b1 : Fin 512 → EReal) (k : Fin 512) : EReal :=
  Ideal.tanh ((∑ d : Fin 2048, x d * W1 d k) + b1 k)

/-- Output unit `e` of a row: the second affine layer over the hidden units. -/
def row (x : Fin 2048 → EReal) (W1 : Fin 2048 → Fin 512 → EReal) (b1 : Fin 512 → EReal)
    (W2 : Fin 512 → Fin 768 → EReal) (b2 : Fin 768 → EReal) (e : Fin 768) : EReal :=
  (∑ k : Fin 512, hid x W1 b1 k * W2 k e) + b2 e

/-- The projector applied to every row of a [12288, 2048] matrix; the biases are kept as the
    one-row matrices the kernel is handed. -/
def onMatrix (A : (⟨2, ![12288, 2048]⟩ : Shape).Idx → EReal) (W1 : (⟨2, ![2048, 512]⟩ : Shape).Idx → EReal)
    (b1 : (⟨2, ![1, 512]⟩ : Shape).Idx → EReal) (W2 : (⟨2, ![512, 768]⟩ : Shape).Idx → EReal)
    (b2 : (⟨2, ![1, 768]⟩ : Shape).Idx → EReal) : (⟨2, ![12288, 768]⟩ : Shape).Idx → EReal :=
  fun i => row (fun d => A (ix2 (i 0) d)) (fun d k => W1 (ix2 d k)) (fun k => b1 (ix2 (0 : Fin 1) k))
    (fun k e => W2 (ix2 k e)) (fun e => b2 (ix2 (0 : Fin 1) e)) (i 1)

/-- The projector applied to every row (b, s) of a [32, 384, 2048] tensor, biases as vectors. -/
def onTensor (X : (⟨3, ![32, 384, 2048]⟩ : Shape).Idx → EReal) (W1 : (⟨2, ![2048, 512]⟩ : Shape).Idx → EReal)
    (b1 : (⟨1, ![512]⟩ : Shape).Idx → EReal) (W2 : (⟨2, ![512, 768]⟩ : Shape).Idx → EReal)
    (b2 : (⟨1, ![768]⟩ : Shape).Idx → EReal) : (⟨3, ![32, 384, 768]⟩ : Shape).Idx → EReal :=
  fun i => row (fun d => X (ix3 (i 0) (i 1) d)) (fun d k => W1 (ix2 d k)) (fun k => b1 (ix1 k))
    (fun k e => W2 (ix2 k e)) (fun e => b2 (ix1 e)) (i 2)

/-- Flattening commutes with the projector: run over the tensor flattened to [12288, 2048], with the
    biases viewed as one-row matrices, and regrouped to [32, 384, 768], it is the projector over the
    tensor. Row 384·b + s of the flattened matrix is row (b, s) of the tensor, and a row's formula does
    not look at any other row. -/
theorem reshape_onMatrix (X : (⟨3, ![32, 384, 2048]⟩ : Shape).Idx → EReal) (W1 : (⟨2, ![2048, 512]⟩ : Shape).Idx → EReal)
    (b1 : (⟨1, ![512]⟩ : Shape).Idx → EReal) (W2 : (⟨2, ![512, 768]⟩ : Shape).Idx → EReal) (b2 : (⟨1, ![768]⟩ : Shape).Idx → EReal)
    (hX : (⟨3, ![32, 384, 2048]⟩ : Shape).ShapeCasts ⟨2, ![12288, 2048]⟩)
    (h1 : (⟨1, ![512]⟩ : Shape).ShapeCasts ⟨2, ![1, 512]⟩) (h2 : (⟨1, ![768]⟩ : Shape).ShapeCasts ⟨2, ![1, 768]⟩)
    (hO : (⟨2, ![12288, 768]⟩ : Shape).ShapeCasts ⟨3, ![32, 384, 768]⟩) :
    shapeCast ⟨3, ![32, 384, 768]⟩
        (onMatrix (shapeCast ⟨2, ![12288, 2048]⟩ X hX) W1 (shapeCast ⟨2, ![1, 512]⟩ b1 h1) W2 (shapeCast ⟨2, ![1, 768]⟩ b2 h2)) hO
      = onTensor X W1 b1 W2 b2 := by
  funext i
  obtain ⟨b, s, e, rfl⟩ : ∃ (b : Fin 32) (s : Fin 384) (e : Fin 768), i = ix3 b s e := ⟨i 0, i 1, i 2, eq_ix3 i⟩
  have hb : b.val < 32 := b.isLt
  have hs : s.val < 384 := s.isLt
  have hr : b.val * 384 + s.val < 12288 := by omega
  rw [shapeCast_apply _ hO (ix3 b s e) (ix2 (⟨b.val * 384 + s.val, hr⟩ : Fin 12288) e) (by
    rw [Shape.rowMajor_val_two, Shape.rowMajor_val_three]; rfl)]
  have hx : (fun d : Fin 2048 => shapeCast ⟨2, ![12288, 2048]⟩ X hX (ix2 (⟨b.val * 384 + s.val, hr⟩ : Fin 12288) d))
      = fun d => X (ix3 b s d) := funext fun d =>
    shapeCast_apply X hX _ _ (by rw [Shape.rowMajor_val_three, Shape.rowMajor_val_two]; rfl)
  have hb1 : (fun k : Fin 512 => shapeCast ⟨2, ![1, 512]⟩ b1 h1 (ix2 (0 : Fin 1) k)) = fun k => b1 (ix1 k) :=
    funext fun k => shapeCast_a_1a_apply b1 h1 0 k
  have hb2 : (fun e : Fin 768 => shapeCast ⟨2, ![1, 768]⟩ b2 h2 (ix2 (0 : Fin 1) e)) = fun e => b2 (ix1 e) :=
    funext fun e => shapeCast_a_1a_apply b2 h2 0 e
  show row (fun d => shapeCast ⟨2, ![12288, 2048]⟩ X hX (ix2 (⟨b.val * 384 + s.val, hr⟩ : Fin 12288) d)) (fun d k => W1 (ix2 d k))
      (fun k => shapeCast ⟨2, ![1, 512]⟩ b1 h1 (ix2 (0 : Fin 1) k)) (fun k e => W2 (ix2 k e))
      (fun e => shapeCast ⟨2, ![1, 768]⟩ b2 h2 (ix2 (0 : Fin 1) e)) e
    = row (fun d => X (ix3 b s d)) (fun d k => W1 (ix2 d k)) (fun k => b1 (ix1 k)) (fun k e => W2 (ix2 k e)) (fun e => b2 (ix1 e)) e
  rw [hx, hb1, hb2]

end Cert.Mlp

end
-- ==== Proof.Body.lean ====
/-
  What the kernel body computes, read at one element of its output block.

  The body loads a [512, 2048] block of rows, the two weight matrices whole and the two biases as
  one-row matrices, and stores  tanh (x · W1 + b1) · W2 + b2.  On the extended reals a change of
  float format is the identity and a matrix product into a zero accumulator is the plain sum over
  the contracted axis, so the stored element (p, q) is `Mlp.row` of row `p` of the loaded block.
-/
import proofs.«123044_j17394617549221_1_alg».proof.Proof.Gen.KernelIdeal.Skeleton
import proofs.«123044_j17394617549221_1_alg».proof.Proof.Mlp
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-! ## The first product: [512, 2048] × [2048, 512], contracted over the 2048 columns -/

theorem lhsA_0 (i : S512x512.Idx) (q : dot_S512x2048_S2048x512_S512x512_1_0_0_1_n_n.contr.Idx) :
    (dot_S512x2048_S2048x512_S512x512_1_0_0_1_n_n.lhsIdx i q 0).val = (i 0).val := by
  unfold DotDims.lhsIdx
  rw [dif_neg (show ¬(0 : Fin S512x2048.rank) ∈ dot_S512x2048_S2048x512_S512x512_1_0_0_1_n_n.lhsBatch by decide), dif_pos (show (0 : Fin S512x2048.rank) ∈ dot_S512x2048_S2048x512_S512x512_1_0_0_1_n_n.lhsNonContracting by decide)]
  rfl
theorem lhsA_1 (i : S512x512.Idx) (q : dot_S512x2048_S2048x512_S512x512_1_0_0_1_n_n.contr.Idx) :
    (dot_S512x2048_S2048x512_S512x512_1_0_0_1_n_n.lhsIdx i q 1).val = (q ⟨0, by decide⟩).val :=
  dot_S512x2048_S2048x512_S512x512_1_0_0_1_n_n.lhsIdx_val_of_single rfl i q
theorem rhsA_0 (i : S512x512.Idx) (q : dot_S512x2048_S2048x512_S512x512_1_0_0_1_n_n.contr.Idx) :
    (dot_S512x2048_S2048x512_S512x512_1_0_0_1_n_n.rhsIdx i q 0).val = (q ⟨0, by decide⟩).val :=
  dot_S512x2048_S2048x512_S512x512_1_0_0_1_n_n.rhsIdx_val_of_single rfl i q
theorem rhsA_1 (i : S512x512.Idx) (q : dot_S512x2048_S2048x512_S512x512_1_0_0_1_n_n.contr.Idx) :
    (dot_S512x2048_S2048x512_S512x512_1_0_0_1_n_n.rhsIdx i q 1).val = (i 1).val := by
  unfold DotDims.rhsIdx
  rw [dif_neg (show ¬(1 : Fin S2048x512.rank) ∈ dot_S512x2048_S2048x512_S512x512_1_0_0_1_n_n.rhsBatch by decide), dif_pos (show (1 : Fin S2048x512.rank) ∈ dot_S512x2048_S2048x512_S512x512_1_0_0_1_n_n.rhsNonContracting by decide)]
  rfl

/-- Element (p, k) of the first product into a zero accumulator: the sum over the 2048 columns. -/
theorem mmA_apply {φ₁ φ₂ : FTy} (l : FVec Ideal S512x2048 φ₁) (r : FVec Ideal S2048x512 φ₂) (p : Fin 512) (k : Fin 512) :
    matmul dot_S512x2048_S2048x512_S512x512_1_0_0_1_n_n none l r (constant S512x512 .f32 0x00000000#32) (ix2 p k)
      = ∑ d : Fin 2048, l (ix2 p d) * r (ix2 d k) := by
  simp only [matmul]
  rw [Ideal.matmul_constant_zero_apply, ← Equiv.sum_comp (ValueIdx.contrEquiv1 dot_S512x2048_S2048x512_S512x512_1_0_0_1_n_n 2048 rfl rfl).symm]
  refine Finset.sum_congr rfl fun d _ => ?_
  have hk := ValueIdx.contrEquiv1_symm_val dot_S512x2048_S2048x512_S512x512_1_0_0_1_n_n 2048 rfl rfl d
  have el : dot_S512x2048_S2048x512_S512x512_1_0_0_1_n_n.lhsIdx (ix2 p k) ((ValueIdx.contrEquiv1 dot_S512x2048_S2048x512_S512x512_1_0_0_1_n_n 2048 rfl rfl).symm d) = ix2 p d := funext fun a => Fin.ext (by
    match a with
    | ⟨0, _⟩ => exact lhsA_0 _ _
    | ⟨1, _⟩ => exact (lhsA_1 _ _).trans hk)
  have er : dot_S512x2048_S2048x512_S512x512_1_0_0_1_n_n.rhsIdx (ix2 p k) ((ValueIdx.contrEquiv1 dot_S512x2048_S2048x512_S512x512_1_0_0_1_n_n 2048 rfl rfl).symm d) = ix2 d k := funext fun a => Fin.ext (by
    match a with
    | ⟨0, _⟩ => exact (rhsA_0 _ _).trans hk
    | ⟨1, _⟩ => exact rhsA_1 _ _)
  rw [el, er]

/-! ## The second product: [512, 512] × [512, 768], contracted over the 512 hidden units -/

theorem lhsB_0 (i : S512x768.Idx) (q : dot_S512x512_S512x768_S512x768_1_0_0_1_n_n.contr.Idx) :
    (dot_S512x512_S512x768_S512x768_1_0_0_1_n_n.lhsIdx i q 0).val = (i 0).val := by
  unfold DotDims.lhsIdx
  rw [dif_neg (show ¬(0 : Fin S512x512.rank) ∈ dot_S512x512_S512x768_S512x768_1_0_0_1_n_n.lhsBatch by decide), dif_pos (show (0 : Fin S512x512.rank) ∈ dot_S512x512_S512x768_S512x768_1_0_0_1_n_n.lhsNonContracting by decide)]
  rfl
theorem lhsB_1 (i : S512x768.Idx) (q : dot_S512x512_S512x768_S512x768_1_0_0_1_n_n.contr.Idx) :
    (dot_S512x512_S512x768_S512x768_1_0_0_1_n_n.lhsIdx i q 1).val = (q ⟨0, by decide⟩).val :=
  dot_S512x512_S512x768_S512x768_1_0_0_1_n_n.lhsIdx_val_of_single rfl i q
theorem rhsB_0 (i : S512x768.Idx) (q : dot_S512x512_S512x768_S512x768_1_0_0_1_n_n.contr.Idx) :
    (dot_S512x512_S512x768_S512x768_1_0_0_1_n_n.rhsIdx i q 0).val = (q ⟨0, by decide⟩).val :=
  dot_S512x512_S512x768_S512x768_1_0_0_1_n_n.rhsIdx_val_of_single rfl i q
theorem rhsB_1 (i : S512x768.Idx) (q : dot_S512x512_S512x768_S512x768_1_0_0_1_n_n.contr.Idx) :
    (dot_S512x512_S512x768_S512x768_1_0_0_1_n_n.rhsIdx i q 1).val = (i 1).val := by
  unfold DotDims.rhsIdx
  rw [dif_neg (show ¬(1 : Fin S512x768.rank) ∈ dot_S512x512_S512x768_S512x768_1_0_0_1_n_n.rhsBatch by decide), dif_pos (show (1 : Fin S512x768.rank) ∈ dot_S512x512_S512x768_S512x768_1_0_0_1_n_n.rhsNonContracting by decide)]
  rfl

/-- Element (p, q) of the second product into a zero accumulator: the sum over the 512 hidden units. -/
theorem mmB_apply {φ₁ φ₂ : FTy} (l : FVec Ideal S512x512 φ₁) (r : FVec Ideal S512x768 φ₂) (p : Fin 512) (q : Fin 768) :
    matmul dot_S512x512_S512x768_S512x768_1_0_0_1_n_n none l r (constant S512x768 .f32 0x00000000#32) (ix2 p q)
      = ∑ k : Fin 512, l (ix2 p k) * r (ix2 k q) := by
  simp only [matmul]
  rw [Ideal.matmul_constant_zero_apply, ← Equiv.sum_comp (ValueIdx.contrEquiv1 dot_S512x512_S512x768_S512x768_1_0_0_1_n_n 512 rfl rfl).symm]
  refine Finset.sum_congr rfl fun k _ => ?_
  have hk := ValueIdx.contrEquiv1_symm_val dot_S512x512_S512x768_S512x768_1_0_0_1_n_n 512 rfl rfl k
  have el : dot_S512x512_S512x768_S512x768_1_0_0_1_n_n.lhsIdx (ix2 p q) ((ValueIdx.contrEquiv1 dot_S512x512_S512x768_S512x768_1_0_0_1_n_n 512 rfl rfl).symm k) = ix2 p k := funext fun a => Fin.ext (by
    match a with
    | ⟨0, _⟩ => exact lhsB_0 _ _
    | ⟨1, _⟩ => exact (lhsB_1 _ _).trans hk)
  have er : dot_S512x512_S512x768_S512x768_1_0_0_1_n_n.rhsIdx (ix2 p q) ((ValueIdx.contrEquiv1 dot_S512x512_S512x768_S512x768_1_0_0_1_n_n 512 rfl rfl).symm k) = ix2 k q := funext fun a => Fin.ext (by
    match a with
    | ⟨0, _⟩ => exact (rhsB_0 _ _).trans hk
    | ⟨1, _⟩ => exact rhsB_1 _ _)
  rw [el, er]

/-! ## The stored value at (p, q) -/

/-- The body's one store, at element (p, q) of the block: the projector's row formula over row `p`
    of the loaded block, the loaded weights and the loaded one-row biases. -/
theorem pay_apply (x0 : Vec Ideal S512x2048 .f32) (x1 : Vec Ideal S2048x512 .bf16) (x2 : Vec Ideal S1x512 .f32)
    (x3 : Vec Ideal S512x768 .bf16) (x4 : Vec Ideal S1x768 .f32) (p : Fin 512) (q : Fin 768) :
    k0_pay1 (F := Ideal) x0 x1 x2 x3 x4 (ix2 p q)
      = Cert.Mlp.row (fun d => x0 (ix2 p d)) (fun d k => x1 (ix2 d k)) (fun k => x2 (ix2 (0 : Fin 1) k))
          (fun k e => x3 (ix2 k e)) (fun e => x4 (ix2 (0 : Fin 1) e)) q := by
  unfold k0_pay1 Cert.Mlp.row
  simp only [shapeCast_self]
  rw [addf_apply, mmB_apply, broadcastTo_1b_ab_apply]
  refine congrArg (· + x4 (ix2 (0 : Fin 1) q)) (Finset.sum_congr rfl fun k _ => ?_)
  refine congrArg (· * x3 (ix2 k q)) ?_
  unfold Cert.Mlp.hid
  refine congrArg Ideal.tanh ?_
  rw [addf_apply, mmA_apply, broadcastTo_1b_ab_apply]
  rfl

/-- The same, against the projector over a whole [12288, 2048] matrix `A`: when the loaded row block's
    row `y 0` is row `i 0` of `A`, the loaded weights and biases are the arrays themselves, and the
    column is the same, the stored element `y` is the matrix projector's element `i`. -/
theorem pay_eq_onMatrix (x0 : Vec Ideal S512x2048 .f32) (x1 : Vec Ideal S2048x512 .bf16) (x2 : Vec Ideal S1x512 .f32)
    (x3 : Vec Ideal S512x768 .bf16) (x4 : Vec Ideal S1x768 .f32)
    (A : FVec Ideal S12288x2048 .f32) (W1 : FVec Ideal S2048x512 .bf16) (B1 : FVec Ideal S1x512 .f32)
    (W2 : FVec Ideal S512x768 .bf16) (B2 : FVec Ideal S1x768 .f32)
    (y : S512x768.Idx) (i : S12288x768.Idx)
    (h0 : ∀ d : Fin 2048, x0 (ix2 (y 0) d) = A (ix2 (i 0) d))
    (h1 : x1 = W1) (h2 : x2 = B1) (h3 : x3 = W2) (h4 : x4 = B2) (hi : (i 1).val = (y 1).val) :
    k0_pay1 (F := Ideal) x0 x1 x2 x3 x4 y = Cert.Mlp.onMatrix A W1 B1 W2 B2 i := by
  subst h1 h2 h3 h4
  obtain ⟨p, q, rfl⟩ : ∃ (p : Fin 512) (q : Fin 768), y = ix2 p q := ⟨y 0, y 1, eq_ix2 y⟩
  rw [pay_apply]
  unfold Cert.Mlp.onMatrix
  have hq : i 1 = q := Fin.ext hi
  have hx : (fun d : Fin 2048 => x0 (ix2 p d)) = fun d => A (ix2 (i 0) d) := funext fun d => h0 d
  rw [hx, hq]

end Cert.KernelIdeal.Body

end
-- ==== Proof.Prefix.lean ====
/-
  What the host lines before the call hand to the kernel.

  Both programs first build the same [32, 384, 2048] tensor of token embeddings: 32 topic rows
  looked up in the table, then 352 input rows looked up in the table with the sentence vector of
  their block of 44 added (a negative id is first shifted up by the table's height; the lookup is
  the same operation on the same operands in both programs, so its rule for an id that is still
  out of range never has to be opened).
  The kernel program flattens that tensor to [12288, 2048], narrows the two weight matrices (the
  identity on the extended reals) and views the two biases as one-row matrices.
-/
import proofs.«123044_j17394617549221_1_alg».proof.Proof.Gen.KernelIdeal.Frame
import Idealize.ShloMosaic.Lib.StableHlo.Run
import Idealize.ShloMosaic.PureOps.Ideal

noncomputable section

namespace Cert.KernelIdeal.Prefix

open Cert.KernelIdeal Cert.KernelIdeal.Gen Idealize.ShloMosaic Idealize.ShloMosaic.TcCoe Idealize.SL.Sem Idealize.ShloMosaic.StableHlo

/-- The embeddings tensor: rows 0..31 of each batch are the table's rows at the topic ids, rows
    32..383 the table's rows at the input ids plus the sentence vector of the row's block of 44. -/
def emb (co : FVec Ideal S32x8x2048 .f32) (ids : IVec S32x352 32) (tids : IVec S32x32 32)
    (tbl : FVec Ideal S21128x2048 .f32) : FVec Ideal S32x384x2048 .f32 :=
  concatenate S32x384x2048 1
    [⟨S32x32x2048, Host.gather gather_S21128x2048_S32x32x1_S32x32x2048_2_0_n_n_0_2_12048 tbl
        (broadcastInDim S32x32x1 ![0, 1] bcast_S32x32_S32x32x1_0_1
          (select (cmpi .slt tids (broadcastInDim S32x32 ![] bcast_S_S32x32 (constantI S_ 32 0#32)))
            (addi tids (broadcastInDim S32x32 ![] bcast_S_S32x32 (constantI S_ 32 21128#32))) tids))⟩,
     ⟨S32x352x2048, shapeCast S32x352x2048 (addf
        (shapeCast S32x8x44x2048 (Host.gather gather_S21128x2048_S32x352x1_S32x352x2048_2_0_n_n_0_2_12048 tbl
          (broadcastInDim S32x352x1 ![0, 1] bcast_S32x352_S32x352x1_0_1
            (select (cmpi .slt ids (broadcastInDim S32x352 ![] bcast_S_S32x352 (constantI S_ 32 0#32)))
              (addi ids (broadcastInDim S32x352 ![] bcast_S_S32x352 (constantI S_ 32 21128#32))) ids)))
          shapeCasts_S32x352x2048_S32x8x44x2048)
        (broadcastInDim S32x8x44x2048 ![0, 1, 2, 3] bcast_S32x8x1x2048_S32x8x44x2048_0_1_2_3
          (broadcastInDim S32x8x1x2048 ![0, 1, 3] bcast_S32x8x2048_S32x8x1x2048_0_1_3 co)))
        shapeCasts_S32x8x44x2048_S32x352x2048⟩]
    concatenates_S32x32x2048_S32x352x2048_S32x384x2048_d1

variable (m : (ℓ : Loc nD τ sig) → Buf (Elt Ideal) ℓ)

set_option maxHeartbeats 8000000 in
/-- The kernel's first operand is the embeddings tensor flattened to [12288, 2048]. -/
theorem V_rows (c : Dev nD) :
    (V m c main_call0_v20 : S12288x2048.Idx → EReal)
      = shapeCast S12288x2048 (emb (m ((c.tc : Thread nD τ).loc main_arg0)) (m ((c.tc : Thread nD τ).loc main_arg1))
          (m ((c.tc : Thread nD τ).loc main_arg2)) (m ((c.tc : Thread nD τ).loc main_arg7))) shapeCasts_S32x384x2048_S12288x2048 := by
  show StableHlo.after hostOps0 (fun b => m (c, b)) (Proc.devRef .tc main_call0_v20) = _
  after_results
  rfl

/-- The first weight matrix arrives narrowed: the same extended reals. -/
theorem V_w1 (c : Dev nD) :
    (V m c main_call0_v21 : S2048x512.Idx → EReal) = m ((c.tc : Thread nD τ).loc main_arg8) := by
  show StableHlo.after hostOps0 (fun b => m (c, b)) (Proc.devRef .tc main_call0_v21) = _
  after_results
  rfl

/-- So does the second. -/
theorem V_w2 (c : Dev nD) :
    (V m c main_call0_v22 : S512x768.Idx → EReal) = m ((c.tc : Thread nD τ).loc main_arg10) := by
  show StableHlo.after hostOps0 (fun b => m (c, b)) (Proc.devRef .tc main_call0_v22) = _
  after_results
  rfl

/-- The first bias arrives as a one-row matrix. -/
theorem V_b1 (c : Dev nD) :
    (V m c main_call0_v23 : S1x512.Idx → EReal)
      = shapeCast S1x512 (m ((c.tc : Thread nD τ).loc main_arg9)) shapeCasts_S512_S1x512 := by
  show StableHlo.after hostOps0 (fun b => m (c, b)) (Proc.devRef .tc main_call0_v23) = _
  after_results
  rfl

/-- So does the second. -/
theorem V_b2 (c : Dev nD) :
    (V m c main_call0_v24 : S1x768.Idx → EReal)
      = shapeCast S1x768 (m ((c.tc : Thread nD τ).loc main_arg11)) shapeCasts_S768_S1x768 := by
  show StableHlo.after hostOps0 (fun b => m (c, b)) (Proc.devRef .tc main_call0_v24) = _
  after_results
  rfl

end Cert.KernelIdeal.Prefix

end
-- ==== Proof.KernelRun.lean ====
/-
  The kernel program's run, with its results named.

  The call tiles the [12288, 2048] matrix of rows into 24 blocks of 512 rows; point t of the grid
  reads block t, the weights and biases whole, and writes block t of the [12288, 768] result. Every
  written element is the projector's row formula over its own row (Body.lean), so the blocks are
  the restrictions of ONE matrix, and since block (row / 512) holds any given row they cover the
  array: after the call the array IS that matrix. The host line after the call only regroups its
  rows as [32, 384, 768]; the three integer results are concatenations of arguments.
-/
import proofs.«123044_j17394617549221_1_alg».proof.Proof.Gen.KernelIdeal.Frame
import proofs.«123044_j17394617549221_1_alg».proof.Proof.Body
import proofs.«123044_j17394617549221_1_alg».proof.Proof.Prefix
import Idealize.ShloMosaic.Lib.Pipeline.Value
import Idealize.ShloMosaic.Lib.StableHlo.Run

set_option maxRecDepth 16384

noncomputable section

namespace Cert.KernelIdeal.Run

open Cert.KernelIdeal Cert.KernelIdeal.Gen Idealize.ShloMosaic Idealize.ShloMosaic.TcCoe Idealize.SL.Sem
open Idealize.ShloMosaic.ValueIdx Idealize.ShloMosaic.StableHlo

variable (m : (ℓ : Loc nD τ sig) → Buf (Elt Ideal) ℓ) (ρ : Dev nD → PrngReg)

theorem hz : (![0, 0] : Fin 2 → Nat) = fun _ => 0 := funext fun a => by fin_cases a <;> rfl

/-- The printed index maps, decided over the 24 points: the rows window and the result window are at
    block (t, 0); the weights and biases are always at block (0, 0). -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

/-- The matrix the result array ends holding: the projector over the rows the call was handed. -/
abbrev outMatrix (c : Dev nD) : S12288x768.Idx → EReal :=
  Cert.Mlp.onMatrix (V m c main_call0_v20) (V m c main_call0_v21) (V m c main_call0_v23) (V m c main_call0_v22) (V m c main_call0_v24)

/-- What point `t` writes back is block `t` of that matrix. -/
theorem flushed_eq (c : Dev nD) (t : Fin cfg0.N) :
    (dats m 0 c).flushed 5 t = ((cfg0.win 5).blk t).view.read (Elt Ideal) (outMatrix m c) := by
  show (cfg0.win 5).cut (grid0.coords t) ((dats m 0 c).after 5 t) = _
  rw [after0_5]
  unfold out0_5
  rw [View.canon_unit_zero hz]
  simp only [View.ld_unit_zero (S := S512x2048) hz, View.ld_unit_zero (S := S2048x512) hz, View.ld_unit_zero (S := S1x512) hz,
    View.ld_unit_zero (S := S512x768) hz, View.ld_unit_zero (S := S1x768) hz]
  obtain ⟨e00, e01, e10, e11, e20, e21, e30, e31, e40, e41, e50, e51⟩ := idx_facts t
  funext j
  refine Cert.KernelIdeal.Body.pay_eq_onMatrix (iblk m c 0 t) (iblk m c 1 t) (iblk m c 2 t) (iblk m c 3 t) (iblk m c 4 t)
    (V m c main_call0_v20) (V m c main_call0_v21) (V m c main_call0_v23) (V m c main_call0_v22) (V m c main_call0_v24)
    j (((cfg0.win 5).blk t).view.emb j) ?_ ?_ ?_ ?_ ?_ ?_
  · intro d
    show V m c main_call0_v20 (((cfg0.win 0).blk t).view.emb (ix2 (j 0) d)) = V m c main_call0_v20 (ix2 ((((cfg0.win 5).blk t).view.emb j) 0) d)
    refine congrArg (V m c main_call0_v20) (funext fun a => Fin.ext ?_)
    match a with
    | ⟨0, _⟩ => show win0_0.index t (0 : Fin 2) * 512 + 1 * (j 0).val = win0_5.index t (0 : Fin 2) * 512 + 1 * (j 0).val; omega
    | ⟨1, _⟩ => show win0_0.index t (1 : Fin 2) * 2048 + 1 * d.val = d.val; omega
  · funext z
    show V m c main_call0_v21 (((cfg0.win 1).blk t).view.emb z) = V m c main_call0_v21 z
    refine congrArg (V m c main_call0_v21) (funext fun a => Fin.ext ?_)
    match a with
    | ⟨0, _⟩ => show win0_1.index t (0 : Fin 2) * 2048 + 1 * (z 0).val = (z 0).val; omega
    | ⟨1, _⟩ => show win0_1.index t (1 : Fin 2) * 512 + 1 * (z 1).val = (z 1).val; omega
  · funext z
    show V m c main_call0_v23 (((cfg0.win 2).blk t).view.emb z) = V m c main_call0_v23 z
    refine congrArg (V m c main_call0_v23) (funext fun a => Fin.ext ?_)
    match a with
    | ⟨0, _⟩ => show win0_2.index t (0 : Fin 2) * 1 + 1 * (z 0).val = (z 0).val; omega
    | ⟨1, _⟩ => show win0_2.index t (1 : Fin 2) * 512 + 1 * (z 1).val = (z 1).val; omega
  · funext z
    show V m c main_call0_v22 (((cfg0.win 3).blk t).view.emb z) = V m c main_call0_v22 z
    refine congrArg (V m c main_call0_v22) (funext fun a => Fin.ext ?_)
    match a with
    | ⟨0, _⟩ => show win0_3.index t (0 : Fin 2) * 512 + 1 * (z 0).val = (z 0).val; omega
    | ⟨1, _⟩ => show win0_3.index t (1 : Fin 2) * 768 + 1 * (z 1).val = (z 1).val; omega
  · funext z
    show V m c main_call0_v24 (((cfg0.win 4).blk t).view.emb z) = V m c main_call0_v24 z
    refine congrArg (V m c main_call0_v24) (funext fun a => Fin.ext ?_)
    match a with
    | ⟨0, _⟩ => show win0_4.index t (0 : Fin 2) * 1 + 1 * (z 0).val = (z 0).val; omega
    | ⟨1, _⟩ => show win0_4.index t (1 : Fin 2) * 768 + 1 * (z 1).val = (z 1).val; omega
  · show win0_5.index t (1 : Fin 2) * 768 + 1 * (j 1).val = (j 1).val; omega

/-- An element of the result array is in point `t`'s block iff each coordinate is in the block's range. -/
theorem mem_blk (t : Fin cfg0.N) (i : S12288x768.Idx) :
    i ∈ ((cfg0.win 5).blk t).view.set ↔ ∀ a : Fin 2, win0_5.index t a * S512x768.size a ≤ (i a).val ∧ (i a).val < win0_5.index t a * S512x768.size a + S512x768.size a := by
  show i ∈ ((View.whole main_call0_v25).slice (win0_5.rect t)).set ↔ _
  rw [View.set_slice_whole, Rect.mem_set_unit]
  exact Iff.rfl

/-- Row r lies in the block of point r / 512: the 24 blocks cover the array. -/
theorem cover (i : S12288x768.Idx) : ∃ t : Fin cfg0.N, (cfg0.win 5).flush t = true ∧ i ∈ ((cfg0.win 5).blk t).view.set := by
  have hi0 : (i 0).val < 12288 := (i 0).isLt
  have hi1 : (i 1).val < 768 := (i 1).isLt
  have hN : cfg0.N = 24 := N_0
  obtain ⟨t, ht⟩ : ∃ t : Fin cfg0.N, t.val = (i 0).val / 512 := ⟨⟨(i 0).val / 512, by rw [hN]; omega⟩, rfl⟩
  obtain ⟨-, -, -, -, -, -, -, -, -, -, e50, e51⟩ := idx_facts t
  refine ⟨t, flush0_5 t, ?_⟩
  rw [mem_blk]
  intro a
  match a with
  | ⟨0, _⟩ => show win0_5.index t (0 : Fin 2) * 512 ≤ (i 0).val ∧ (i 0).val < win0_5.index t (0 : Fin 2) * 512 + 512; omega
  | ⟨1, _⟩ => show win0_5.index t (1 : Fin 2) * 768 ≤ (i 1).val ∧ (i 1).val < win0_5.index t (1 : Fin 2) * 768 + 768; omega

/-- The result array after the call is the projector's matrix. -/
theorem final (c : Dev nD) : (dats m 0 c).arrAt 5 cfg0.N = outMatrix m c :=
  (dats m 0 c).arrAt_eq_of_cover 5 (outMatrix m c) (fun t _ => flushed_eq m c t) cover

/-! ## The host lines after the call -/

/-- The first result: the result array's rows regrouped as [32, 384, 768]. -/
theorem tail0 (c : Dev nD) :
    (Pipeline.afterTail₀ cfgs (dats m) 0 (V0 m) [hostOps1] c main_v0_0 : S32x384x768.Idx → EReal)
      = shapeCast S32x384x768 (outMatrix m c) shapeCasts_S12288x768_S32x384x768 := by
  unfold Pipeline.afterTail₀
  show StableHlo.after hostOps1 _ (Proc.devRef .tc main_v0_0) = _
  after_results
  exact congrArg (fun A : S12288x768.Idx → EReal => shapeCast S32x384x768 A shapeCasts_S12288x768_S32x384x768)
    ((Pipeline.withArrays_arr spec0 launch0.win.arr_inj c _ _ 5).trans (final m c))

/-- The second result: topic ids followed by input ids. -/
theorem tail1 (c : Dev nD) :
    (Pipeline.afterTail₀ cfgs (dats m) 0 (V0 m) [hostOps1] c main_v0_1 : S32x384.Idx → BitVec 32)
      = concatenate S32x384 1 [⟨S32x32, m ((c.tc : Thread nD τ).loc main_arg2)⟩, ⟨S32x352, m ((c.tc : Thread nD τ).loc main_arg1)⟩] concatenates_S32x32_S32x352_S32x384_d1 := by
  unfold Pipeline.afterTail₀
  show StableHlo.after hostOps1 _ (Proc.devRef .tc main_v0_1) = _
  after_results
  have ea : Pipeline.withArrays (cfgs 0).spec c (V0 m c) (fun w => (dats m 0 c).arrAt w (cfgs 0).N) (Proc.devRef .tc main_arg2)
      = m ((c.tc : Thread nD τ).loc main_arg2) :=
    (Pipeline.withArrays_of_ne _ c (V0 m c) _ main_arg2 (by exact (by decide : ∀ w, Pipeline.arrRef spec0 w ≠ main_arg2))).trans (V_main_arg2 m c)
  have eb : Pipeline.withArrays (cfgs 0).spec c (V0 m c) (fun w => (dats m 0 c).arrAt w (cfgs 0).N) (Proc.devRef .tc main_arg1)
      = m ((c.tc : Thread nD τ).loc main_arg1) :=
    (Pipeline.withArrays_of_ne _ c (V0 m c) _ main_arg1 (by exact (by decide : ∀ w, Pipeline.arrRef spec0 w ≠ main_arg1))).trans (V_main_arg1 m c)
  rw [ea, eb]
  rfl

/-- The third result: the two type-id arrays joined. -/
theorem tail2 (c : Dev nD) :
    (Pipeline.afterTail₀ cfgs (dats m) 0 (V0 m) [hostOps1] c main_v0_2 : S32x384.Idx → BitVec 32)
      = concatenate S32x384 1 [⟨S32x32, m ((c.tc : Thread nD τ).loc main_arg4)⟩, ⟨S32x352, m ((c.tc : Thread nD τ).loc main_arg6)⟩] concatenates_S32x32_S32x352_S32x384_d1 := by
  unfold Pipeline.afterTail₀
  show StableHlo.after hostOps1 _ (Proc.devRef .tc main_v0_2) = _
  after_results
  have ea : Pipeline.withArrays (cfgs 0).spec c (V0 m c) (fun w => (dats m 0 c).arrAt w (cfgs 0).N) (Proc.devRef .tc main_arg4)
      = m ((c.tc : Thread nD τ).loc main_arg4) :=
    (Pipeline.withArrays_of_ne _ c (V0 m c) _ main_arg4 (by exact (by decide : ∀ w, Pipeline.arrRef spec0 w ≠ main_arg4))).trans (V_main_arg4 m c)
  have eb : Pipeline.withArrays (cfgs 0).spec c (V0 m c) (fun w => (dats m 0 c).arrAt w (cfgs 0).N) (Proc.devRef .tc main_arg6)
      = m ((c.tc : Thread nD τ).loc main_arg6) :=
    (Pipeline.withArrays_of_ne _ c (V0 m c) _ main_arg6 (by exact (by decide : ∀ w, Pipeline.arrRef spec0 w ≠ main_arg6))).trans (V_main_arg6 m c)
  rw [ea, eb]
  rfl

/-- The fourth result: the two attention masks joined. -/
theorem tail3 (c : Dev nD) :
    (Pipeline.afterTail₀ cfgs (dats m) 0 (V0 m) [hostOps1] c main_v0_3 : S32x384.Idx → BitVec 32)
      = concatenate S32x384 1 [⟨S32x32, m ((c.tc : Thread nD τ).loc main_arg3)⟩, ⟨S32x352, m ((c.tc : Thread nD τ).loc main_arg5)⟩] concatenates_S32x32_S32x352_S32x384_d1 := by
  unfold Pipeline.afterTail₀
  show StableHlo.after hostOps1 _ (Proc.devRef .tc main_v0_3) = _
  after_results
  have ea : Pipeline.withArrays (cfgs 0).spec c (V0 m c) (fun w => (dats m 0 c).arrAt w (cfgs 0).N) (Proc.devRef .tc main_arg3)
      = m ((c.tc : Thread nD τ).loc main_arg3) :=
    (Pipeline.withArrays_of_ne _ c (V0 m c) _ main_arg3 (by exact (by decide : ∀ w, Pipeline.arrRef spec0 w ≠ main_arg3))).trans (V_main_arg3 m c)
  have eb : Pipeline.withArrays (cfgs 0).spec c (V0 m c) (fun w => (dats m 0 c).arrAt w (cfgs 0).N) (Proc.devRef .tc main_arg5)
      = m ((c.tc : Thread nD τ).loc main_arg5) :=
    (Pipeline.withArrays_of_ne _ c (V0 m c) _ main_arg5 (by exact (by decide : ∀ w, Pipeline.arrRef spec0 w ≠ main_arg5))).trans (V_main_arg5 m c)
  rw [ea, eb]
  rfl

/-! ## The run -/

/-- Every weakly fair execution of the kernel program ends with its four results at these values and
    its arguments unchanged. -/
theorem run : θ_run defs (onTc (τ := τ) (main (F := Ideal))) ⟨m, fun _ => 0, ρ⟩ fun r => ∀ c : Dev nD,
      r.2.mem ((c.tc : Thread nD τ).loc main_v0_0) = shapeCast S32x384x768 (outMatrix m c) shapeCasts_S12288x768_S32x384x768
      ∧ r.2.mem ((c.tc : Thread nD τ).loc main_v0_1) = concatenate S32x384 1 [⟨S32x32, m ((c.tc : Thread nD τ).loc main_arg2)⟩, ⟨S32x352, m ((c.tc : Thread nD τ).loc main_arg1)⟩] concatenates_S32x32_S32x352_S32x384_d1
      ∧ r.2.mem ((c.tc : Thread nD τ).loc main_v0_2) = concatenate S32x384 1 [⟨S32x32, m ((c.tc : Thread nD τ).loc main_arg4)⟩, ⟨S32x352, m ((c.tc : Thread nD τ).loc main_arg6)⟩] concatenates_S32x32_S32x352_S32x384_d1
      ∧ r.2.mem ((c.tc : Thread nD τ).loc main_v0_3) = concatenate S32x384 1 [⟨S32x32, m ((c.tc : Thread nD τ).loc main_arg3)⟩, ⟨S32x352, m ((c.tc : Thread nD τ).loc main_arg5)⟩] concatenates_S32x32_S32x352_S32x384_d1
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨
      ((h c).2 main_v0_0 (Pipeline.mem_restRefs_of main_v0_0 (by decide) (by decide))).trans (tail0 m c),
      ((h c).2 main_v0_1 (Pipeline.mem_restRefs_of main_v0_1 (by decide) (by decide))).trans (tail1 m c),
      ((h c).2 main_v0_2 (Pipeline.mem_restRefs_of main_v0_2 (by decide) (by decide))).trans (tail2 m c),
      ((h c).2 main_v0_3 (Pipeline.mem_restRefs_of main_v0_3 (by decide) (by decide))).trans (tail3 m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).2 main_arg5 (Pipeline.mem_restRefs_of main_arg5 (by decide) (by decide))).trans (W_main_arg5 m (dats m) c),
      ((h c).2 main_arg6 (Pipeline.mem_restRefs_of main_arg6 (by decide) (by decide))).trans (W_main_arg6 m (dats m) c),
      ((h c).2 main_arg7 (Pipeline.mem_restRefs_of main_arg7 (by decide) (by decide))).trans (W_main_arg7 m (dats m) c),
      ((h c).2 main_arg8 (Pipeline.mem_restRefs_of main_arg8 (by decide) (by decide))).trans (W_main_arg8 m (dats m) c),
      ((h c).2 main_arg9 (Pipeline.mem_restRefs_of main_arg9 (by decide) (by decide))).trans (W_main_arg9 m (dats m) c),
      ((h c).2 main_arg10 (Pipeline.mem_restRefs_of main_arg10 (by decide) (by decide))).trans (W_main_arg10 m (dats m) c),
      ((h c).2 main_arg11 (Pipeline.mem_restRefs_of main_arg11 (by decide) (by decide))).trans (W_main_arg11 m (dats m) c)⟩)
    (run_main m ρ)

/-- The first result in terms of the program's arguments: the projector over the embeddings tensor.
    The rows the call was handed are the tensor flattened, the weights are the arguments themselves
    and the biases the arguments as one-row matrices; flattening commutes with the projector. -/
theorem result0_eq (c : Dev nD) :
    shapeCast S32x384x768 (outMatrix m c) shapeCasts_S12288x768_S32x384x768
      = Cert.Mlp.onTensor
          (Cert.KernelIdeal.Prefix.emb (m ((c.tc : Thread nD τ).loc main_arg0)) (m ((c.tc : Thread nD τ).loc main_arg1))
            (m ((c.tc : Thread nD τ).loc main_arg2)) (m ((c.tc : Thread nD τ).loc main_arg7)))
          (m ((c.tc : Thread nD τ).loc main_arg8)) (m ((c.tc : Thread nD τ).loc main_arg9))
          (m ((c.tc : Thread nD τ).loc main_arg10)) (m ((c.tc : Thread nD τ).loc main_arg11)) := by
  unfold outMatrix
  rw [Cert.KernelIdeal.Prefix.V_rows, Cert.KernelIdeal.Prefix.V_w1, Cert.KernelIdeal.Prefix.V_w2,
    Cert.KernelIdeal.Prefix.V_b1, Cert.KernelIdeal.Prefix.V_b2]
  exact Cert.Mlp.reshape_onMatrix _ _ _ _ _ _ _ _ _

end Cert.KernelIdeal.Run

end
-- ==== Proof.RefValue.lean ====
/-
  The reference's first result is the projector over the embeddings tensor.

  The reference contracts the [32, 384, 2048] tensor with W1 over its last axis, adds b1 along the
  last axis, takes tanh, contracts with W2 and adds b2: at element (b, s, e) that is the projector's
  row formula over row (b, s) of the tensor. The tensor itself (the two table lookups, the added
  sentence vectors, the join) is left as the term the reference prints: the kernel program prints
  the same one.
-/
import proofs.«123044_j17394617549221_1_alg».proof.Proof.Gen.ReferenceIdeal.Read
import proofs.«123044_j17394617549221_1_alg».proof.Proof.Mlp
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx

/-! ## The composed index maps, coordinate by coordinate -/

theorem ix_rows (i : S32x384x768.Idx) (k : Fin 512) (d : Fin 2048) :
    lidx_main_v20 (lidx_main_v25 i k) d = ix3 (i 0) (i 1) d :=
  funext fun a => Fin.ext (by match a with | ⟨0, _⟩ => rfl | ⟨1, _⟩ => rfl | ⟨2, _⟩ => rfl)
theorem ix_w1 (i : S32x384x768.Idx) (k : Fin 512) (d : Fin 2048) :
    ridx_main_v20 (lidx_main_v25 i k) d = ix2 d k :=
  funext fun a => Fin.ext (by match a with | ⟨0, _⟩ => rfl | ⟨1, _⟩ => rfl)
theorem ix_b1 (i : S32x384x768.Idx) (k : Fin 512) :
    idx_main_v21 (idx_main_v22 (lidx_main_v25 i k)) = ix1 k :=
  funext fun a => Fin.ext (by match a with | ⟨0, _⟩ => rfl)
theorem ix_w2 (i : S32x384x768.Idx) (k : Fin 512) :
    ridx_main_v25 i k = ix2 k (i 2) :=
  funext fun a => Fin.ext (by match a with | ⟨0, _⟩ => rfl | ⟨1, _⟩ => rfl)
theorem ix_b2 (i : S32x384x768.Idx) :
    idx_main_v26 (idx_main_v27 i) = ix1 (i 2) :=
  funext fun a => Fin.ext (by match a with | ⟨0, _⟩ => rfl)

/-- The reference's first result, as a function of its arguments, is the projector over its
    embeddings tensor. -/
theorem result_eq (x0 : (⟨S32x8x2048, .f32⟩ : BufTy).Contents (Elt Ideal)) (x1 : (⟨S32x352, .i32⟩ : BufTy).Contents (Elt Ideal))
    (x2 : (⟨S32x32, .i32⟩ : BufTy).Contents (Elt Ideal)) (x7 : (⟨S21128x2048, .f32⟩ : BufTy).Contents (Elt Ideal))
    (x8 : (⟨S2048x512, .f32⟩ : BufTy).Contents (Elt Ideal)) (x9 : (⟨S512, .f32⟩ : BufTy).Contents (Elt Ideal))
    (x10 : (⟨S512x768, .f32⟩ : BufTy).Contents (Elt Ideal)) (x11 : (⟨S768, .f32⟩ : BufTy).Contents (Elt Ideal)) :
    val_main_v28 (F := Ideal) x0 x1 x2 x7 x8 x9 x10 x11
      = Cert.Mlp.onTensor (val_main_v19 (F := Ideal) x0 x1 x2 x7) x8 x9 x10 x11 := by
  funext i
  rw [val_main_v28_apply, val_main_v25_apply, val_main_v27_apply, val_main_v26_apply]
  simp only [val_main_v24_apply, val_main_v23_apply, val_main_v20_apply, val_main_v22_apply, val_main_v21_apply,
    ix_rows, ix_w1, ix_b1, ix_w2, ix_b2, Ideal.hostUnary_tanh_def, Ideal.addf_def]
  rfl

end Cert.ReferenceIdeal.RefValue

end
-- ==== Proof.Algebraic.lean ====
/-
  The two idealized programs end with equal results.

  First result: the kernel program's is the projector over the embeddings tensor (KernelRun.lean),
  the reference's is the projector over its embeddings tensor (RefValue.lean), and the two tensors
  are the same operations of the same arguments. The three integer results are, in both programs,
  the same pairs of arguments joined along the second axis.
-/
import proofs.«123044_j17394617549221_1_alg».proof.Defs
import proofs.«123044_j17394617549221_1_alg».proof.Proof.KernelRun
import proofs.«123044_j17394617549221_1_alg».proof.Proof.RefValue
import proofs.«123044_j17394617549221_1_alg».proof.Proof.Gen.ReferenceIdeal.Run
import proofs.«123044_j17394617549221_1_alg».proof.Proof.Gen.Pre_finite_inputs

noncomputable section

namespace Cert.Proof.Algebraic

open Idealize.ShloMosaic Idealize.ShloMosaic.TcCoe Idealize.SL.Sem

/-- Both programs build the embeddings tensor by the same operations of the same four arguments. -/
theorem emb_eq (x0 : (⟨Cert.ReferenceIdeal.S32x8x2048, .f32⟩ : BufTy).Contents (Elt Ideal))
    (x1 : (⟨Cert.ReferenceIdeal.S32x352, .i32⟩ : BufTy).Contents (Elt Ideal))
    (x2 : (⟨Cert.ReferenceIdeal.S32x32, .i32⟩ : BufTy).Contents (Elt Ideal))
    (x7 : (⟨Cert.ReferenceIdeal.S21128x2048, .f32⟩ : BufTy).Contents (Elt Ideal)) :
    Cert.ReferenceIdeal.Read.val_main_v19 (F := Ideal) x0 x1 x2 x7 = Cert.KernelIdeal.Prefix.emb x0 x1 x2 x7 := rfl

theorem algebraic : Cert.algebraic_KernelIdeal_ReferenceIdeal := by
  intro m ρ m' ρ' _ hagree
  refine ⟨fun c => Cert.Mlp.onTensor
      (Cert.KernelIdeal.Prefix.emb (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg7)))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11)),
    _, _, _,
    (θ_run Cert.KernelIdeal.defs _ _).mono (fun _ h c => ⟨(h c).1.trans (Cert.KernelIdeal.Run.result0_eq m c), (h c).2⟩)
      (Cert.KernelIdeal.Run.run m ρ), ?_⟩
  refine (θ_run Cert.ReferenceIdeal.defs _ _).mono (fun _ h c => ?_) (Cert.ReferenceIdeal.Value.run (F := Ideal) m' ρ')
  obtain ⟨h0, h1, h2, h3, hrest⟩ := h c
  obtain ⟨a0, a1, a2, a3, a4, a5, a6, a7, a8, a9, a10, a11⟩ := hagree c
  refine ⟨?_, ?_, ?_, ?_, hrest⟩
  · rw [h0, a0, a1, a2, a7, a8, a9, a10, a11]
    exact (Cert.ReferenceIdeal.Read.val_main_v28_eq _ _ _ _ _ _ _ _).trans
      ((Cert.ReferenceIdeal.RefValue.result_eq _ _ _ _ _ _ _ _).trans
        (congrArg (fun X => Cert.Mlp.onTensor X _ _ _ _) (emb_eq _ _ _ _)))
  · rw [h1, a2, a1]
  · rw [h2, a4, a6]
  · rw [h3, a3, a5]

end Cert.Proof.Algebraic

end
-- ==== Proof.lean ====
/-
  The certificate of a two-layer projector kernel against its einsum reference.

  The kernel program gathers token embeddings on the host, flattens them to a [12288, 2048] matrix
  and runs one call over 24 blocks of 512 rows computing  tanh (x · W1 + b1) · W2 + b2  with narrowed
  weights; the reference contracts the unflattened [32, 384, 2048] tensor with the same weights. On
  the extended reals the narrowing is the identity and both products are plain sums over the
  contracted axis, so both are the same row formula (Proof/Mlp.lean); only the addressing of a row
  differs, and flattening commutes with a row-wise map.

  Proof/Body.lean       the body's stored element is the row formula of the loaded block's row
  Proof/Prefix.lean     what the host lines before the call hand to it
  Proof/KernelRun.lean  the result array after the 24 points, the host lines after, the run
  Proof/RefValue.lean   the reference's first result is the row formula over the tensor's rows
  Proof/Algebraic.lean  the two runs side by side
  The frames of the two kernel programs are the generated ones; the reference's frame is its
  generated run with the results dropped; the idealization rewrote nothing.
-/
import proofs.«123044_j17394617549221_1_alg».proof.Defs
import proofs.«123044_j17394617549221_1_alg».proof.Proof.Gen.Kernel
import proofs.«123044_j17394617549221_1_alg».proof.Proof.Gen.Kernel.Skeleton
import proofs.«123044_j17394617549221_1_alg».proof.Proof.Gen.Kernel.Launch
import proofs.«123044_j17394617549221_1_alg».proof.Proof.Gen.Kernel.Points
import proofs.«123044_j17394617549221_1_alg».proof.Proof.Gen.Kernel.Frame
import proofs.«123044_j17394617549221_1_alg».proof.Proof.Gen.KernelIdeal
import proofs.«123044_j17394617549221_1_alg».proof.Proof.Gen.KernelIdeal.Skeleton
import proofs.«123044_j17394617549221_1_alg».proof.Proof.Gen.KernelIdeal.Launch
import proofs.«123044_j17394617549221_1_alg».proof.Proof.Gen.KernelIdeal.Points
import proofs.«123044_j17394617549221_1_alg».proof.Proof.Gen.KernelIdeal.Frame
import proofs.«123044_j17394617549221_1_alg».proof.Proof.Gen.ReferenceIdeal
import proofs.«123044_j17394617549221_1_alg».proof.Proof.Gen.Pre_finite_inputs
import proofs.«123044_j17394617549221_1_alg».proof.Proof.Gen.ReferenceIdeal.Run
import proofs.«123044_j17394617549221_1_alg».proof.Proof.Gen.ReferenceIdeal.Read
import proofs.«123044_j17394617549221_1_alg».proof.Proof.Algebraic
import Idealize.ShloMosaic.Adequacy
import Idealize.ShloMosaic.Init

noncomputable section

namespace Cert.Proof

open Idealize.ShloMosaic Idealize.SL.Sem Cert.Kernel

theorem frame_kernel : Cert.frame_Kernel := fun m ρ _ => Cert.Kernel.Gen.frame m ρ

theorem frame_kernelIdeal : Cert.frame_KernelIdeal := fun m ρ _ => Cert.KernelIdeal.Gen.frame m ρ

/-- The reference has no call: its frame is its run with the four results dropped. -/
theorem frame_referenceIdeal : Cert.frame_ReferenceIdeal := fun m ρ _ =>
  (θ_run Cert.ReferenceIdeal.defs _ _).mono (fun _ h c => (h c).2.2.2.2) (Cert.ReferenceIdeal.Value.run (F := Ideal) m ρ)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, Cert.Proof.Algebraic.algebraic⟩

end Cert.Proof

end
